-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16384 : Shape := ⟨2, ![8192, 16384]⟩
abbrev S_ : Shape := ⟨0, ![]⟩

class Facts : Prop where
  bcast_S_S8192x16384 : S_.BroadcastsInDim S8192x16384 (![] : Fin 0 → Fin S8192x16384.rank)
  reducesTo_S8192x16384_S_d0_1 : S8192x16384.ReducesTo [0, 1] S_
  h_S_ : 0 < S_.numel

variable [Facts]

def fn {F : FTy → Type} [FloatOps F] (main_arg0 : FVec F S8192x16384 .f32) : IVec S_ 1 :=
  let main_v0 : FVec F S8192x16384 .f32 := Host.absf main_arg0
  let main_cst : FVec F S_ .f32 := constant S_ .f32 0x7F800000#32
  let main_v1 : FVec F S8192x16384 .f32 := broadcastInDim S8192x16384 ![] bcast_S_S8192x16384 main_cst
  let main_v2 : IVec S8192x16384 1 := cmpf .olt main_v0 main_v1
  let main_c : IVec S_ 1 := constantI S_ 1 1#1
  let main_v3 : IVec S_ 1 := (fun x v => Host.reduce IntOp.andi x v reducesTo_S8192x16384_S_d0_1 h_S_) main_v2 main_c
  main_v3
-- ==== Kernel.lean ====
abbrev S8192x16384 : Shape := ⟨2, ![8192, 16384]⟩
abbrev S512x2048 : Shape := ⟨2, ![512, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8192x16384, .f32⟩
  | .hbm, ⟨1, _⟩ => ⟨S8192x16384, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S512x2048_S512x2048_0_0 : ∀ a, (![0, 0] : Fin 2 → Nat) a + S512x2048.size a ≤ S512x2048.size a
  h_S512x2048 : 0 < S512x2048.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x16384.size a
  hwx0_0 : ∀ i : grid0.Coords, EltTy.bits .f32 = 32 ∨ (Rect.block (s := S8192x16384) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x16384.size a
  hwx0_1 : ∀ i : grid0.Coords, EltTy.bits .f32 = 32 ∨ (Rect.block (s := S8192x16384) S512x2048.size (cc0_transform_1 i) (hinb0_1 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x16384 : Shape := ⟨2, ![8192, 16384]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x16384, .f32⟩
  | .hbm, ⟨1, _⟩ => ⟨S_, .f32⟩
  | .hbm, ⟨2, _⟩ => ⟨S8192x16384, .f32⟩
  | .hbm, ⟨3, _⟩ => ⟨S8192x16384, .f32⟩
  | .hbm, ⟨4, _⟩ => ⟨S_, .f32⟩
  | .hbm, ⟨5, _⟩ => ⟨S8192x16384, .f32⟩
  | .hbm, ⟨6, _⟩ => ⟨S8192x16384, .f32⟩
  | .hbm, ⟨7, _⟩ => ⟨S_, .f32⟩
  | .hbm, ⟨8, _⟩ => ⟨S8192x16384, .f32⟩
  | .hbm, ⟨9, _⟩ => ⟨S8192x16384, .f32⟩
  | .hbm, ⟨10, _⟩ => ⟨S_, .f32⟩
  | .hbm, ⟨11, _⟩ => ⟨S8192x16384, .f32⟩
  | .hbm, ⟨12, _⟩ => ⟨S8192x16384, .f32⟩
  | .hbm, ⟨13, _⟩ => ⟨S8192x16384, .f32⟩
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S8192x16384 : S_.BroadcastsInDim S8192x16384 (![] : Fin 0 → Fin S8192x16384.rank)

variable [Facts₀]

class Facts : Prop extends Facts₀ where

variable [Facts]
-- ==== Proof.Quarter.lean ====
/-
  The one arithmetic fact that joins the two programs. The kernel scales by the float literal 0.25 where the
  reference divides by the float literal 4.0. Both words are exact dyadic rationals: 0x40800000 denotes the real 4
  and 0x3E800000 denotes the real 1/4. On the extended reals the quotient by a nonzero real y is the product with
  1/y (at the infinities too), so x / 4 = x * (1/4) for every extended real x, and no finiteness is needed.
-/
import Idealize.ShloMosaic.PureOps.Ideal

noncomputable section

namespace Cert.Quarter

open Idealize.ShloMosaic

/-- The word of `4.0` denotes the real number 4. -/
theorem ofBits_four : Ideal.ofBits .f32 0x40800000#32 = ((4 : ℝ) : EReal) := by
  simp [Ideal.ofBits, Ideal.ieee, -EReal.coe_mul]; norm_num

/-- The word of `0.25` denotes the real number 1/4. -/
theorem ofBits_quarter : Ideal.ofBits .f32 0x3E800000#32 = ((1 / 4 : ℝ) : EReal) := by
  simp [Ideal.ofBits, Ideal.ieee, -EReal.coe_mul]; norm_num

/-- Dividing an extended real by the literal 4.0 is multiplying it by the literal 0.25. -/
theorem div_four (x : EReal) :
    Ideal.div x (Ideal.ofBits .f32 0x40800000#32) = x * Ideal.ofBits .f32 0x3E800000#32 := by
  rw [ofBits_four, ofBits_quarter]
  exact Ideal.div_coe (by norm_num : (4 : ℝ) ≠ 0) x

end Cert.Quarter

end
-- ==== Proof.AffineSquare.lean ====
/-
  Both programs compute, entry by entry, the square of an affine image of the input:
  z = ((x + 2) * 3 - 5) scaled to a quarter, and the result is z * z. They differ in one place only: the reference
  forms the quarter as a quotient by 4, the kernel as a product with 1/4. Every other operation and every other
  literal is the same on both sides, so once the quotient by 4 is read as the product with 1/4 (an identity of the
  extended reals, infinities included) the two entries are the same expression.
-/
import proofs.«175269_j76166950028114_1_alg».proof.Proof.Gen.KernelIdeal.Value
import proofs.«175269_j76166950028114_1_alg».proof.Proof.Gen.ReferenceIdeal.Run
import proofs.«175269_j76166950028114_1_alg».proof.Proof.Quarter

noncomputable section

namespace Cert.AffineSquare

open Idealize.ShloMosaic Idealize.ShloMosaic.TcCoe
open Cert.ReferenceIdeal Cert.ReferenceIdeal.Gen

/-- The reference's result, as a function of its argument array x, is the kernel's whole-array function of x:
    at every index both are (((x + 2) * 3 - 5) * (1/4))^2, the reference's quotient by 4 being that product. -/
theorem reference_eq_kernel (x : FVec Ideal S8192x16384 .f32) :
    mulf
      (Host.divf
        (subf
          (mulf
            (addf x (broadcastInDim S8192x16384 ![] bcast_S_S8192x16384 (constant S_ .f32 0x40000000#32)))
            (broadcastInDim S8192x16384 ![] bcast_S_S8192x16384 (constant S_ .f32 0x40400000#32)))
          (broadcastInDim S8192x16384 ![] bcast_S_S8192x16384 (constant S_ .f32 0x40A00000#32)))
        (broadcastInDim S8192x16384 ![] bcast_S_S8192x16384 (constant S_ .f32 0x40800000#32)))
      (Host.divf
        (subf
          (mulf
            (addf x (broadcastInDim S8192x16384 ![] bcast_S_S8192x16384 (constant S_ .f32 0x40000000#32)))
            (broadcastInDim S8192x16384 ![] bcast_S_S8192x16384 (constant S_ .f32 0x40400000#32)))
          (broadcastInDim S8192x16384 ![] bcast_S_S8192x16384 (constant S_ .f32 0x40A00000#32)))
        (broadcastInDim S8192x16384 ![] bcast_S_S8192x16384 (constant S_ .f32 0x40800000#32)))
    = Cert.KernelIdeal.Value.G1 (F := Ideal) x := by
  funext i
  simp only [Cert.KernelIdeal.Value.G1, mulf, Host.divf, addf, subf, broadcastInDim, constant,
    Ideal.hostDivf_def, Ideal.mulf_def, Ideal.addf_def, Ideal.subf_def, Ideal.scalar_mulf_def, Ideal.ofBits_def,
    Cert.Quarter.div_four]

end Cert.AffineSquare

end
-- ==== Proof.lean ====
/-
  The kernel and the reference both map every entry x of an 8192 x 16384 array to z * z, where
  z = ((x + 2) * 3 - 5) scaled to a quarter. The kernel works block by block (512 x 2048 blocks on a 16 x 8 grid, the
  blocks tiling the array), each block a pointwise function of the matching input block, so its result array is one
  pointwise function of the input array. The reference is the same chain of whole-array operations, except that it
  divides by 4 where the kernel multiplies by 1/4. Over the extended reals these agree at every value
  (Proof/Quarter.lean), which makes the two result arrays equal index by index (Proof/AffineSquare.lean). The
  precondition is not used: no step needs finiteness. Nothing of the kernel is rewritten by idealization, so the
  idealization claim is the trivial one.
-/
import proofs.«175269_j76166950028114_1_alg».proof.Defs
import proofs.«175269_j76166950028114_1_alg».proof.Proof.Gen.Kernel.Frame
import proofs.«175269_j76166950028114_1_alg».proof.Proof.Gen.KernelIdeal.Value
import proofs.«175269_j76166950028114_1_alg».proof.Proof.Gen.Pre_finite_inputs
import proofs.«175269_j76166950028114_1_alg».proof.Proof.Gen.ReferenceIdeal.Run
import proofs.«175269_j76166950028114_1_alg».proof.Proof.AffineSquare
import Idealize.ShloMosaic.Adequacy
import Idealize.ShloMosaic.Init

noncomputable section

namespace Cert.Proof

open Idealize.ShloMosaic Idealize.SL.Sem

/-- The idealized kernel terminates without fault and leaves its argument unchanged: its run with the result dropped. -/
theorem frame_KernelIdeal : frame_KernelIdeal := fun m ρ _ =>
  (θ_run Cert.KernelIdeal.defs _ _).mono (fun _ h c => (h c).2) (Cert.KernelIdeal.Value.run (F := Ideal) m ρ)

/-- The same for the reference: its run with the result dropped. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the argument, the kernel's result array is its pointwise function of the argument and
    the reference's is its chain of whole-array operations of the same argument; these are one function, the
    reference's quotient by 4 being the kernel's product with 1/4. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact Cert.AffineSquare.reference_eq_kernel _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
